-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x2048 : Shape := ⟨2, ![32768, 2048]⟩
abbrev S2048x512 : Shape := ⟨2, ![2048, 512]⟩
abbrev S2048 : Shape := ⟨1, ![2048]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S32768x512 .f32) (main_arg1 : FVec F S32768x2048 .f32) (main_arg2 : FVec F S2048x512 .f32) (main_arg3 : FVec F S2048 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S32768x512 : Shape := ⟨2, ![32768, 512]⟩
abbrev S32768x2048 : Shape := ⟨2, ![32768, 2048]⟩
abbrev S2048x512 : Shape := ⟨2, ![2048, 512]⟩
abbrev S2048 : Shape := ⟨1, ![2048]⟩
abbrev S1x2048 : Shape := ⟨2, ![1, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x512, .f32⟩
  | .hbm, ⟨1, _⟩ => ⟨S32768x2048, .f32⟩
  | .hbm, ⟨2, _⟩ => ⟨S2048x512, .f32⟩
  | .hbm, ⟨3, _⟩ => ⟨S2048, .f32⟩
  | .hbm, ⟨4, _⟩ => ⟨S1x2048, .f32⟩
  | .hbm, ⟨5, _⟩ => ⟨S32768x2048, .f32⟩
  | .local _ .vmem, ⟨0, _⟩ => ⟨S512x512, .f32⟩
  | .local _ .vmem, ⟨1, _⟩ => ⟨S512x512, .f32⟩
  | .local _ .vmem, ⟨2, _⟩ => ⟨S2048x512, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S32768x2048.size a
  hwx0_4 : ∀ i : grid0.Coords, EltTy.bits .f32 = 32 ∨ (Rect.block (s := S32768x2048) S512x2048.size (cc0_transform_4 i) (hinb0_4 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x2048 : Shape := ⟨2, ![32768, 2048]⟩
abbrev S2048x512 : Shape := ⟨2, ![2048, 512]⟩
abbrev S2048 : Shape := ⟨1, ![2048]⟩
abbrev S1x2048 : Shape := ⟨2, ![1, 2048]⟩
abbrev S_ : Shape := ⟨0, ![]⟩
abbrev S32768 : Shape := ⟨1, ![32768]⟩
abbrev S32768x1 : Shape := ⟨2, ![32768, 1]⟩

abbrev nBuf : Space → Nat
  | .hbm => 33
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x2048, .f32⟩
  | .hbm, ⟨2, _⟩ => ⟨S2048x512, .f32⟩
  | .hbm, ⟨3, _⟩ => ⟨S2048, .f32⟩
  | .hbm, ⟨4, _⟩ => ⟨S32768x2048, .f32⟩
  | .hbm, ⟨5, _⟩ => ⟨S1x2048, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  reducesTo_S32768x2048_S32768_d1 : S32768x2048.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x2048_0_1 : S32768x1.BroadcastsInDim S32768x2048 (![0, 1] : Fin 2 → Fin S32768x2048.rank)
  dot_S32768x512_S2048x512_S32768x2048_1_1_0_0_n_n_wf : DotDims.WF S32768x512 S2048x512 S32768x2048 [1] [1] [0] [0] [] []

variable [Facts₀]

def dot_S32768x512_S2048x512_S32768x2048_1_1_0_0_n_n : DotDims S32768x512 S2048x512 S32768x2048 where
  lhsContracting := [1]
  rhsContracting := [1]
  lhsNonContracting := [0]
  rhsNonContracting := [0]
  lhsBatch := []
  rhsBatch := []
  wf := dot_S32768x512_S2048x512_S32768x2048_1_1_0_0_n_n_wf

class Facts : Prop extends Facts₀ where

variable [Facts]
-- ==== Proof.RowNorm.lean ====
/-
  One row of the normalised linear layer, on the extended reals.

  A row `z : Fin 2048 → EReal` has mean `(∑ c, z c) / 2048`, centred entries `z c - mean`, and biased variance
  `(∑ c, (z c - mean)²) / 2048`; the layer returns `((z c - mean) · s + y) · y` with `s` the reciprocal square root
  of `var + ε`. The kernel multiplies by `rsqrt (var + ε)`; the reference divides by `sqrt (var + ε)`. The two
  agree at EVERY extended-real row: a square is never negative on the extended reals (`⊥ · ⊥ = ⊤`), so the sum of
  squares is `≥ 0`, its quotient by the real `2048` is `≥ 0`, and with `ε > 0` the argument `v` of the root is
  `> 0` — a positive real, or `⊤`. At a positive real `v`, `d · (√v)⁻¹` is `d / √v` with `√v ≠ 0`; at `⊤` both
  sides are `d · 0`.
-/
import Idealize.ShloMosaic.PureOps.Ideal
import Idealize.ShloMosaic.PureOps.Ideal.Laws

noncomputable section

namespace Cert.RowNorm

open Idealize.ShloMosaic

/-! ## The two literals -/

/-- The pattern of `2048.0` denotes the real `2048`. -/
theorem ofBits_2048 : Ideal.ofBits .f32 0x45000000#32 = ((2048 : ℝ) : EReal) := by
  simp [Ideal.ofBits, Ideal.ieee, -EReal.coe_mul]; norm_num

/-- The pattern of `ε` (the single-precision value nearest `10⁻⁵`) denotes a positive real. -/
theorem ofBits_eps_pos : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## Signs on the extended reals -/

/-- A square is never negative, at the infinities too. -/
theorem mul_self_nonneg (d : EReal) : 0 ≤ d * d := by
  induction d using EReal.rec with
  | bot => simp
  | top => simp
  | coe r => rw [← EReal.coe_mul]; exact_mod_cast _root_.mul_self_nonneg r

/-- The quotient of a nonnegative extended real by the literal `2048` is nonnegative. -/
theorem div_2048_nonneg {q : EReal} (hq : 0 ≤ q) : 0 ≤ Ideal.div q (Ideal.ofBits .f32 0x45000000#32) := by
  rw [ofBits_2048, Ideal.div_coe (by norm_num : (2048 : ℝ) ≠ 0)]
  exact mul_nonneg hq (by exact_mod_cast (by norm_num : (0 : ℝ) ≤ 1 / 2048))

/-! ## The reciprocal root against the quotient by the root -/

/-- At a positive argument the product with the reciprocal square root is the quotient by the square root. -/
theorem mul_rsqrt_eq_div_sqrt {v : EReal} (hv : 0 < v) (d : EReal) :
    d * Ideal.rsqrt v = Ideal.div d (Ideal.sqrt v) := by
  induction v using EReal.rec with
  | bot => exact absurd hv (not_lt.mpr bot_le)
  | top => rw [Ideal.rsqrt_top, Ideal.sqrt_top, Ideal.div, if_neg EReal.top_ne_zero, EReal.inv_top]
  | coe r =>
    have hr : 0 < r := EReal.coe_pos.mp hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div, if_neg (by exact_mod_cast hs), ← EReal.coe_inv]

/-! ## The row -/

/-- The mean of a row: its sum over the literal `2048`. -/
def mean (z : Fin 2048 → EReal) : EReal := Ideal.div (∑ c, z c) (Ideal.ofBits .f32 0x45000000#32)

/-- The biased variance of a row: the sum of the centred squares over the literal `2048`. -/
def var (z : Fin 2048 → EReal) : EReal :=
  Ideal.div (∑ c, (z c - mean z) * (z c - mean z)) (Ideal.ofBits .f32 0x45000000#32)

/-- The argument of the root, `var + ε`, is positive at every row. -/
theorem var_eps_pos (z : Fin 2048 → EReal) : 0 < var z + Ideal.ofBits .f32 0x3727C5AC#32 := by
  obtain ⟨e, he, hE⟩ := ofBits_eps_pos
  have h0 : 0 ≤ var z := div_2048_nonneg (Finset.sum_nonneg fun c _ => mul_self_nonneg _)
  rw [hE]
  calc (0 : EReal) < (e : EReal) := by exact_mod_cast he
    _ = 0 + (e : EReal) := (zero_add _).symm
    _ ≤ var z + (e : EReal) := add_le_add h0 le_rfl

/-- The layer's entry in column `c`, the kernel's way: centred, times the reciprocal root, plus `y`, times `y`. -/
def out (z : Fin 2048 → EReal) (yv : EReal) (c : Fin 2048) : EReal :=
  ((z c - mean z) * Ideal.rsqrt (var z + Ideal.ofBits .f32 0x3727C5AC#32) + yv) * yv

/-- The same entry the reference's way: centred, over the root. -/
theorem out_eq_div (z : Fin 2048 → EReal) (yv : EReal) (c : Fin 2048) :
    out z yv c = (Ideal.div (z c - mean z) (Ideal.sqrt (var z + Ideal.ofBits .f32 0x3727C5AC#32)) + yv) * yv := by
  unfold out; rw [mul_rsqrt_eq_div_sqrt (var_eps_pos z)]

end Cert.RowNorm

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Tile.lean ====
/-
  One tile of the kernel, read at an index.

  At a grid point the body holds a `[512, 512]` tile of `x`, the whole `W : [2048, 512]`, the bias as a row
  `[1, 2048]` and a `[512, 2048]` tile of `y`, and stores ONE value. That value is assembled here from three pieces —
  the linear tile `z = x Wᵀ + b` (a product into a zero accumulator; the change of float format before it is the identity
  on the extended reals), the column of row means `meanCol` (a lane sum over the 2048 columns kept as a `[512, 1]`
  column, over the literal `2048`), and the centred tile `z - mean` — the variance column being `meanCol` of the centred
  tile's square. Read at `(p, q)` the stored value is `RowNorm.out` of row `p` of the linear tile, at column `q`.
-/
import proofs.«179411_j3556232921779_1_alg».proof.Proof.Gen.KernelIdeal.Skeleton
import proofs.«179411_j3556232921779_1_alg».proof.Proof.RowNorm
import proofs.«179411_j3556232921779_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Facts₀

/-! ## The three pieces -/

/-- The linear tile: the tile of `x` against `W` over the shared 512 features, plus the bias row on every row. -/
def ztile (v0 : FVec Ideal S512x512 .f32) (v2 : FVec Ideal S2048x512 .f32) (v5 : FVec Ideal S1x2048 .f32) :
    FVec Ideal S512x2048 .f32 :=
  addf (matmul dot_S512x512_S2048x512_S512x2048_1_1_0_0_n_n none (truncf .bf16 v0 bitsLt_bf16_f32)
      (truncf .bf16 v2 bitsLt_bf16_f32) (constant S512x2048 .f32 0x00000000#32))
    (broadcastTo S512x2048 (shapeCast S1x2048 v5 shapeCasts_S1x2048_S1x2048) broadcasts_S1x2048_S512x2048)

/-- The column of row means of a tile: each row's lane sum, kept as a column, over the literal `2048`. -/
def meanCol (z : FVec Ideal S512x2048 .f32) : FVec Ideal S512x1 .f32 :=
  divf (shapeCast S512x1 (multiReduction .add [1] S512 z 0x00000000#32 reduces_S512x2048_S512 (.inl rfl) rfl)
      shapeCasts_S512_S512x1)
    (broadcast S512x1 (Scalar.ofBits .f32 0x45000000#32))

/-- The centred tile: each entry less its row's mean. -/
def centred (z : FVec Ideal S512x2048 .f32) : FVec Ideal S512x2048 .f32 :=
  subf z (broadcastTo S512x2048 (meanCol z) broadcasts_S512x1_S512x2048)

/-- The body's one stored value is built of these pieces (the printed operations, regrouped). -/
theorem pay_eq (v0 : Vec Ideal S512x512 .f32) (v2 : Vec Ideal S2048x512 .f32) (v5 : Vec Ideal S1x2048 .f32)
    (v25 : Vec Ideal S512x2048 .f32) :
    Gen.k0_pay1 (F := Ideal) v0 v2 v5 v25
      = mulf (addf (mulf (centred (ztile v0 v2 v5))
          (broadcastTo S512x2048
            (rsqrt (addf (meanCol (mulf (centred (ztile v0 v2 v5)) (centred (ztile v0 v2 v5))))
              (broadcast S512x1 (Scalar.ofBits .f32 0x3727C5AC#32))))
            broadcasts_S512x1_S512x2048)) v25) v25 := rfl

/-! ## The product at an index -/

theorem lhs_axis0 (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem lhs_axis1 (i : S512x2048.Idx) (q : dot_S512x512_S2048x512_S512x2048_1_1_0_0_n_n.contr.Idx) :
    (dot_S512x512_S2048x512_S512x2048_1_1_0_0_n_n.lhsIdx i q 1).val = (q ⟨0, by decide⟩).val :=
  dot_S512x512_S2048x512_S512x2048_1_1_0_0_n_n.lhsIdx_val_of_single rfl i q
theorem rhs_axis0 (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem rhs_axis1 (i : S512x2048.Idx) (q : dot_S512x512_S2048x512_S512x2048_1_1_0_0_n_n.contr.Idx) :
    (dot_S512x512_S2048x512_S512x2048_1_1_0_0_n_n.rhsIdx i q 1).val = (q ⟨0, by decide⟩).val :=
  dot_S512x512_S2048x512_S512x2048_1_1_0_0_n_n.rhsIdx_val_of_single rfl i q

/-- The tile product into the zero accumulator, at `(p, c)`: row `p` of the left operand against row `c` of the right,
    summed over the shared 512 features. -/
theorem matmul_ix2 (a : FVec Ideal S512x512 .bf16) (b : FVec Ideal S2048x512 .bf16) (p : Fin 512) (c : Fin 2048) :
    matmul dot_S512x512_S2048x512_S512x2048_1_1_0_0_n_n none a b (constant S512x2048 .f32 0x00000000#32) (ix2 p c)
      = ∑ k : Fin 512, a (ix2 p k) * b (ix2 c k) := by
  simp only [matmul]
  rw [Ideal.matmul_constant_zero_apply,
    ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p c)
      ((contrEquiv1 dot_S512x512_S2048x512_S512x2048_1_1_0_0_n_n 512 rfl rfl).symm k) = ix2 p k :=
    funext fun ax => Fin.ext (by
      match ax with
      | ⟨0, _⟩ => exact lhs_axis0 _ _
      | ⟨1, _⟩ => exact (lhs_axis1 _ _).trans hk)
  have er : dot_S512x512_S2048x512_S512x2048_1_1_0_0_n_n.rhsIdx (ix2 p c)
      ((contrEquiv1 dot_S512x512_S2048x512_S512x2048_1_1_0_0_n_n 512 rfl rfl).symm k) = ix2 c k :=
    funext fun ax => Fin.ext (by
      match ax with
      | ⟨0, _⟩ => exact rhs_axis0 _ _
      | ⟨1, _⟩ => exact (rhs_axis1 _ _).trans hk)
  rw [el, er]

/-! ## A row's lane sum -/

/-- The lane sum of a tile over its 2048 columns, at row `p`. -/
theorem rowsum_ix1 (z : FVec Ideal S512x2048 .f32) (hφ : FKind.Formats .f32)
    (hacc : (0x00000000#32 : BitVec 32) = 0x00000000#32) (p : Fin 512) :
    multiReduction .add [1] S512 z 0x00000000#32 reduces_S512x2048_S512 hφ hacc (ix1 p) = ∑ c : Fin 2048, z (ix2 p c) := by
  refine (Ideal.multiReduction_add_single z 0x00000000#32 reduces_S512x2048_S512 hφ hacc (ix1 p)).trans ?_
  refine Finset.sum_congr rfl fun c _ => congrArg z (funext fun ax => Fin.ext (by
    match ax with
    | ⟨0, _⟩ => rfl
    | ⟨1, _⟩ => rfl))

/-! ## The pieces at an index -/

/-- The linear tile at `(p, c)`: row `p` of the `x` tile against row `c` of `W`, plus the bias of feature `c`. -/
theorem ztile_ix2 (v0 : FVec Ideal S512x512 .f32) (v2 : FVec Ideal S2048x512 .f32) (v5 : FVec Ideal S1x2048 .f32)
    (p : Fin 512) (c : Fin 2048) :
    ztile v0 v2 v5 (ix2 p c) = (∑ k : Fin 512, v0 (ix2 p k) * v2 (ix2 c k)) + v5 (ix2 (0 : Fin 1) c) := by
  unfold ztile
  rw [addf_apply, matmul_ix2, broadcastTo_1b_ab_apply, shapeCast_self]
  rfl

/-- The mean column at row `p` (its one column): the mean of row `p` of the tile. -/
theorem meanCol_ix2 (z : FVec Ideal S512x2048 .f32) (p : Fin 512) (u : Fin 1) :
    meanCol z (ix2 p u) = RowNorm.mean fun c => z (ix2 p c) := by
  unfold meanCol RowNorm.mean
  rw [divf_apply, Cert.LibKeepdims.shapeCast_a_a1_apply]
  exact congrArg (fun s => Ideal.div s (Ideal.ofBits .f32 0x45000000#32)) (rowsum_ix1 z _ _ p)

/-- The centred tile at `(p, c)`: the entry less the mean of its row. -/
theorem centred_ix2 (z : FVec Ideal S512x2048 .f32) (p : Fin 512) (c : Fin 2048) :
    centred z (ix2 p c) = z (ix2 p c) - RowNorm.mean fun c' => z (ix2 p c') := by
  unfold centred
  rw [subf_apply, Cert.LibKeepdims.broadcastTo_a1_ab_apply, meanCol_ix2]

/-- The variance column at row `p`: the variance of row `p` of the tile. -/
theorem varCol_ix2 (z : FVec Ideal S512x2048 .f32) (p : Fin 512) (u : Fin 1) :
    meanCol (mulf (centred z) (centred z)) (ix2 p u) = RowNorm.var fun c => z (ix2 p c) := by
  rw [meanCol_ix2]
  have h : (fun c => mulf (centred z) (centred z) (ix2 p c))
      = fun c => (z (ix2 p c) - RowNorm.mean fun c' => z (ix2 p c')) * (z (ix2 p c) - RowNorm.mean fun c' => z (ix2 p c')) :=
    funext fun c => by
      show centred z (ix2 p c) * centred z (ix2 p c) = _
      rw [centred_ix2]
  rw [h]
  rfl

/-! ## The stored value at an index -/

/-- The body's stored value at `(p, q)` is the normalised entry `q` of row `p` of the linear tile, plus `y`, times `y`. -/
theorem pay_ix2 (v0 : Vec Ideal S512x512 .f32) (v2 : Vec Ideal S2048x512 .f32) (v5 : Vec Ideal S1x2048 .f32)
    (v25 : Vec Ideal S512x2048 .f32) (p : Fin 512) (q : Fin 2048) :
    Gen.k0_pay1 (F := Ideal) v0 v2 v5 v25 (ix2 p q)
      = RowNorm.out (fun c => (∑ k : Fin 512, v0 (ix2 p k) * v2 (ix2 c k)) + v5 (ix2 (0 : Fin 1) c)) (v25 (ix2 p q)) q := by
  rw [pay_eq]
  have hz : (fun c => ztile v0 v2 v5 (ix2 p c))
      = fun c => (∑ k : Fin 512, v0 (ix2 p k) * v2 (ix2 c k)) + v5 (ix2 (0 : Fin 1) c) :=
    funext fun c => ztile_ix2 v0 v2 v5 p c
  rw [mulf_apply, addf_apply, mulf_apply, centred_ix2, Cert.LibKeepdims.broadcastTo_a1_ab_apply]
  show ((_ - _) * Ideal.rsqrt (meanCol _ (ix2 p (0 : Fin 1)) + Ideal.ofBits .f32 0x3727C5AC#32) + _) * _ = _
  rw [varCol_ix2, ztile_ix2, hz]
  rfl

end Cert.KernelIdeal.Tile

end
-- ==== Proof.Layer.lean ====
/-
  The whole layer as ONE function of the argument arrays.

  With `x : [32768, 512]`, `W : [2048, 512]`, a bias `b` over the 2048 output features and `y : [32768, 2048]`, row `r`
  of the linear layer is `z_r c = (∑ k, x[r, k] · W[c, k]) + b c`, and the result at `(r, c)` is the normalised row
  entry `((z_r c - mean z_r) · rsqrt (var z_r + ε) + y[r, c]) · y[r, c]` (the row arithmetic of `RowNorm`).
-/
import proofs.«179411_j3556232921779_1_alg».proof.Proof.RowNorm
import Idealize.ShloMosaic.Lib.ValueIdx

noncomputable section

namespace Cert.Layer

open Idealize.ShloMosaic Idealize.ShloMosaic.ValueIdx

/-- Row `r` of `x Wᵀ + b`: a dot product over the 512 input features, plus the feature's bias. -/
def lin (x : (⟨2, ![32768, 512]⟩ : Shape).Idx → EReal) (w : (⟨2, ![2048, 512]⟩ : Shape).Idx → EReal)
    (b : Fin 2048 → EReal) (r : Fin 32768) (c : Fin 2048) : EReal :=
  (∑ k : Fin 512, x (ix2 r k) * w (ix2 c k)) + b c

/-- The result array: at `(r, c)`, the normalised entry `c` of row `r` of the linear layer, plus `y`, times `y`. -/
def G (x : (⟨2, ![32768, 512]⟩ : Shape).Idx → EReal) (y : (⟨2, ![32768, 2048]⟩ : Shape).Idx → EReal)
    (w : (⟨2, ![2048, 512]⟩ : Shape).Idx → EReal) (b : Fin 2048 → EReal) :
    (⟨2, ![32768, 2048]⟩ : Shape).Idx → EReal :=
  fun i => RowNorm.out (lin x w b ⟨(i 0).val, (i 0).isLt⟩) (y i) ⟨(i 1).val, (i 1).isLt⟩

theorem G_ix2 (x : (⟨2, ![32768, 512]⟩ : Shape).Idx → EReal) (y : (⟨2, ![32768, 2048]⟩ : Shape).Idx → EReal)
    (w : (⟨2, ![2048, 512]⟩ : Shape).Idx → EReal) (b : Fin 2048 → EReal) (r : Fin 32768) (c : Fin 2048) :
    G x y w b (ix2 r c) = RowNorm.out (lin x w b r) (y (ix2 r c)) c := rfl

/-- The same at any index whose two coordinates are known. -/
theorem G_of (x : (⟨2, ![32768, 512]⟩ : Shape).Idx → EReal) (y : (⟨2, ![32768, 2048]⟩ : Shape).Idx → EReal)
    (w : (⟨2, ![2048, 512]⟩ : Shape).Idx → EReal) (b : Fin 2048 → EReal) (i : (⟨2, ![32768, 2048]⟩ : Shape).Idx)
    (r : Fin 32768) (c : Fin 2048) (hr : (i 0).val = r.val) (hc : (i 1).val = c.val) :
    G x y w b i = RowNorm.out (lin x w b r) (y i) c := by
  have e : i = ix2 r c := funext fun a => Fin.ext (by
    match a with
    | ⟨0, _⟩ => exact hr
    | ⟨1, _⟩ => exact hc)
  subst e
  rfl

end Cert.Layer

end
-- ==== Proof.Blocks.lean ====
/-
  From the tiles to the whole array.

  The grid has 64 points; point `t` takes rows `512 t … 512 t + 511` of `x` and of `y`, the whole of `W` and the bias
  row, and writes back rows `512 t … 512 t + 511` of the result. So what point `t` writes back is block `t` of the layer
  function `Layer.G` of the arrays as the region finds them (the tile lemma, with each block entry read where it sits
  in its array); the 64 row blocks cover the result array, row `r` lying in block `r / 512`; hence the array ends
  holding `Layer.G`. The bias row the region finds is the bias vector, reshaped by the one host operation before it.
-/
import proofs.«179411_j3556232921779_1_alg».proof.Proof.Gen.KernelIdeal.Value
import proofs.«179411_j3556232921779_1_alg».proof.Proof.Tile
import proofs.«179411_j3556232921779_1_alg».proof.Proof.Layer
import Idealize.ShloMosaic.Lib.StableHlo.Run
import Idealize.ShloMosaic.Lib.ValueLayout

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zeros : (![0, 0] : Fin 2 → Nat) = fun _ => 0 := funext fun a => by fin_cases a <;> rfl

/-- The printed index maps over the grid: the `x`, `y` and result windows sit at row block `t`, column block `0`; `W` and the
    bias row at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each block entry where it sits in its array -/

/-- The four input tiles at point `t`: of `x`, of `W` (all of it), of the bias row (all of it) and of `y`. -/
abbrev xt (c : Dev nD) (t : Fin cfg0.N) : Vec Ideal S512x512 .f32 := iblk m c 0 t
abbrev wt (c : Dev nD) (t : Fin cfg0.N) : Vec Ideal S2048x512 .f32 := iblk m c 1 t
abbrev bt (c : Dev nD) (t : Fin cfg0.N) : Vec Ideal S1x2048 .f32 := iblk m c 2 t
abbrev yt (c : Dev nD) (t : Fin cfg0.N) : Vec Ideal S512x2048 .f32 := iblk m c 3 t

/-- Entry `(p, k)` of the `x` tile at point `t` is `x` at row `512 t + p`. -/
theorem x_blk (c : Dev nD) (t : Fin cfg0.N) (p k : Fin 512) (r : Fin 32768) (hr : r.val = t.val * 512 + p.val) :
    xt m c t (ix2 p k) = (V m c main_arg0 : S32768x512.Idx → EReal) (ix2 r k) := by
  obtain ⟨e0, e1, -⟩ := idx_facts t
  show (V m c main_arg0 : S32768x512.Idx → EReal) (((cfg0.win 0).blk t).view.emb (ix2 p k)) = _
  refine congrArg (V m c main_arg0 : S32768x512.Idx → EReal) (funext fun a => Fin.ext ?_)
  match a with
  | ⟨0, _⟩ => show win0_0.index t (0 : Fin 2) * 512 + 1 * p.val = r.val; omega
  | ⟨1, _⟩ => show win0_0.index t (1 : Fin 2) * 512 + 1 * k.val = k.val; omega

/-- The `W` window is the whole of `W` at every point. -/
theorem w_blk (c : Dev nD) (t : Fin cfg0.N) (q : Fin 2048) (k : Fin 512) :
    wt m c t (ix2 q k) = (V m c main_arg2 : S2048x512.Idx → EReal) (ix2 q k) := by
  obtain ⟨-, -, e2, e3, -⟩ := idx_facts t
  show (V m c main_arg2 : S2048x512.Idx → EReal) (((cfg0.win 1).blk t).view.emb (ix2 q k)) = _
  refine congrArg (V m c main_arg2 : S2048x512.Idx → EReal) (funext fun a => Fin.ext ?_)
  match a with
  | ⟨0, _⟩ => show win0_1.index t (0 : Fin 2) * 2048 + 1 * q.val = q.val; omega
  | ⟨1, _⟩ => show win0_1.index t (1 : Fin 2) * 512 + 1 * k.val = k.val; omega

/-- The bias row the region finds is the bias vector (the host reshape before the region), and its window is the whole row. -/
theorem b_blk (c : Dev nD) (t : Fin cfg0.N) (q : Fin 2048) :
    bt m c t (ix2 (0 : Fin 1) q) = m ((c : Thread nD τ).loc main_arg3) (ix1 q) := by
  obtain ⟨-, -, -, -, e4, e5, -⟩ := idx_facts t
  have e : (V m c main_v0 : S1x2048.Idx → EReal)
      = shapeCast S1x2048 (m ((c : Thread nD τ).loc main_arg3)) Gen.shapeCasts_S2048_S1x2048 := by
    dsimp only [Gen.V, Gen.hostOps0]; after_results; rfl
  show (V m c main_v0 : S1x2048.Idx → EReal) (((cfg0.win 2).blk t).view.emb (ix2 (0 : Fin 1) q)) = _
  have hi : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 2048 + 1 * q.val = q.val; omega)
  rw [hi, e, shapeCast_a_1a_apply]

/-- Entry `(p, q)` of the `y` tile at point `t` is `y` where the result tile's entry `(p, q)` sits. -/
theorem y_blk (c : Dev nD) (t : Fin cfg0.N) (p : Fin 512) (q : Fin 2048) :
    yt m c t (ix2 p q) = (V m c main_arg1 : S32768x2048.Idx → EReal) (((cfg0.win 4).blk t).view.emb (ix2 p q)) := by
  obtain ⟨-, -, -, -, -, -, e6, e7, e8, e9⟩ := idx_facts t
  show (V m c main_arg1 : S32768x2048.Idx → EReal) (((cfg0.win 3).blk t).view.emb (ix2 p q)) = _
  refine congrArg (V m c main_arg1 : S32768x2048.Idx → EReal) (funext fun a => Fin.ext ?_)
  match a with
  | ⟨0, _⟩ => show win0_3.index t (0 : Fin 2) * 512 + 1 * p.val = win0_4.index t (0 : Fin 2) * 512 + 1 * p.val; omega
  | ⟨1, _⟩ => show win0_3.index t (1 : Fin 2) * 2048 + 1 * q.val = win0_4.index t (1 : Fin 2) * 2048 + 1 * q.val; omega

/-! ## What a point writes back -/

/-- Point `t` writes back block `t` of the layer function of the arrays as the region finds them. -/
theorem flushed_eq (c : Dev nD) (t : Fin cfg0.N) :
    (dats m 0 c).flushed 4 t = ((cfg0.win 4).blk t).view.read (Elt Ideal)
      (Layer.G (V m c main_arg0) (V m c main_arg1) (V m c main_arg2) (fun q => m ((c : Thread nD τ).loc main_arg3) (ix1 q))) := by
  rw [Value.flushed4]
  unfold out0_4
  rw [View.canon_unit_zero zeros]
  simp only [View.ld_unit_zero (S := S512x512) zeros, View.ld_unit_zero (S := S2048x512) zeros,
    View.ld_unit_zero (S := S1x2048) zeros, View.ld_unit_zero (S := S512x2048) zeros]
  obtain ⟨-, -, -, -, -, -, -, -, e8, e9⟩ := idx_facts t
  have ht : t.val < 64 := by have h := t.isLt; have hN : grid0.N = 64 := N_0; exact hN ▸ h
  refine funext fun (j : S512x2048.Idx) => ?_
  obtain ⟨p, q, rfl⟩ : ∃ (p : Fin 512) (q : Fin 2048), j = ix2 p q := ⟨j 0, j 1, eq_ix2 j⟩
  show k0_pay1 (F := Ideal) (xt m c t) (wt m c t) (bt m c t) (yt m c t) (ix2 p q)
    = Layer.G _ _ _ _ (((cfg0.win 4).blk t).view.emb (ix2 p q))
  refine (Tile.pay_ix2 _ _ _ _ p q).trans ?_
  have hp : p.val < 512 := p.isLt
  rw [Layer.G_of _ _ _ _ _ ⟨t.val * 512 + p.val, by omega⟩ q
    (by show win0_4.index t (0 : Fin 2) * 512 + 1 * p.val = t.val * 512 + p.val; omega)
    (by show win0_4.index t (1 : Fin 2) * 2048 + 1 * q.val = q.val; omega)]
  have hrow : (fun c' : Fin 2048 => (∑ k : Fin 512, xt m c t (ix2 p k) * wt m c t (ix2 c' k)) + bt m c t (ix2 (0 : Fin 1) c'))
      = Layer.lin (V m c main_arg0) (V m c main_arg2) (fun q => m ((c : Thread nD τ).loc main_arg3) (ix1 q)) ⟨t.val * 512 + p.val, by omega⟩ :=
    funext fun c' => by
      unfold Layer.lin
      rw [b_blk]
      refine congrArg (· + _) (Finset.sum_congr rfl fun k _ => ?_)
      rw [x_blk m c t p k ⟨t.val * 512 + p.val, by omega⟩ rfl, w_blk]
  rw [hrow, y_blk]

/-! ## The blocks cover the array -/

/-- An index of the result array is in point `t`'s block iff each coordinate is in the block's range on its axis. -/
theorem mem_blk (t : Fin cfg0.N) (i : S32768x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v1).slice (win0_4.rect t)).set ↔ _
  rw [View.set_slice_whole, Rect.mem_set_unit]
  exact Iff.rfl

/-- Every index of the result array is in the block of the point its row falls to, `r / 512`. -/
theorem cover (i : S32768x2048.Idx) :
    ∃ t : Fin cfg0.N, (cfg0.win 4).flush t = true ∧ i ∈ ((cfg0.win 4).blk t).view.set := by
  have hi0 : (i 0).val < 32768 := (i 0).isLt
  have hi1 : (i 1).val < 2048 := (i 1).isLt
  have hN : grid0.N = 64 := N_0
  have hlt : (i 0).val / 512 < grid0.N := by omega
  obtain ⟨-, -, -, -, -, -, -, -, e8, e9⟩ := idx_facts ⟨(i 0).val / 512, hlt⟩
  refine ⟨⟨(i 0).val / 512, hlt⟩, flush0_4 _, ?_⟩
  rw [mem_blk]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    have e : win0_4.index ⟨(i 0).val / 512, hlt⟩ (0 : Fin 2) = (i 0).val / 512 := e8
    omega
  | ⟨1, _⟩ =>
    show win0_4.index ⟨(i 0).val / 512, hlt⟩ (1 : Fin 2) * 2048 ≤ (i 1).val
      ∧ (i 1).val < win0_4.index ⟨(i 0).val / 512, hlt⟩ (1 : Fin 2) * 2048 + 2048
    omega

/-! ## The array after the run, and the run -/

/-- The result array ends holding the layer function of the argument arrays as launched. -/
theorem final (c : Dev nD) :
    (dats m 0 c).arrAt 4 cfg0.N
      = Layer.G (m ((c : Thread nD τ).loc main_arg0)) (m ((c : Thread nD τ).loc main_arg1))
          (m ((c : Thread nD τ).loc main_arg2)) (fun q => m ((c : Thread nD τ).loc main_arg3) (ix1 q)) := by
  rw [← V_main_arg0 m c, ← V_main_arg1 m c, ← V_main_arg2 m c]
  exact (dats m 0 c).arrAt_eq_of_cover 4 _ (fun t _ => flushed_eq m c t) cover

/-- The kernel's run, with the result array at the layer function of the arguments and the arguments unchanged. -/
theorem run : θ_run defs (onTc (τ := τ) (main (F := Ideal))) ⟨m, fun _ => 0, ρ⟩ fun r => ∀ c : Dev nD,
      r.2.mem ((c : Thread nD τ).loc main_v1)
        = Layer.G (m ((c : Thread nD τ).loc main_arg0)) (m ((c : Thread nD τ).loc main_arg1))
            (m ((c : Thread nD τ).loc main_arg2)) (fun q => m ((c : Thread nD τ).loc main_arg3) (ix1 q))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Blocks

end
-- ==== Proof.RefLayer.lean ====
/-
  The reference, operation by operation, is the layer function `Layer.G`.

  The reference computes the linear layer as one `[32768, 2048]` product plus the bias broadcast over the rows, each row's
  mean and biased variance by host sums over the 2048 features from a zero initial value, and divides the centred
  entry by the square root of `var + ε`. Read at `(r, c)`: the linear entry is `Layer.lin` of row `r` at `c`; the
  mean and variance columns at row `r` are `RowNorm.mean` and `RowNorm.var` of that row (the zero initial value adds
  nothing); and the quotient by the root is the product with the reciprocal root, the argument being positive
  (`RowNorm.out_eq_div`).
-/
import proofs.«179411_j3556232921779_1_alg».proof.Proof.Gen.ReferenceIdeal.Read
import proofs.«179411_j3556232921779_1_alg».proof.Proof.Layer

noncomputable section

namespace Cert.ReferenceIdeal.RefLayer

open Idealize.ShloMosaic Idealize.ShloMosaic.ValueIdx Cert.ReferenceIdeal Cert.ReferenceIdeal.Read

variable (x0 : FVec Ideal S32768x512 .f32) (x1 : FVec Ideal S32768x2048 .f32) (x2 : FVec Ideal S2048x512 .f32)
  (x3 : FVec Ideal S2048 .f32)

/-- The linear layer's entry at `(r, c)`. -/
theorem lin_ix2 (r : Fin 32768) (c : Fin 2048) :
    val_main_v3 (F := Ideal) x0 x2 x3 (ix2 r c) = Layer.lin x0 x2 (fun c' => x3 (ix1 c')) r c := by
  rw [val_main_v3_apply, val_main_v0_apply, val_main_v2_apply, val_main_v1_apply]
  have hl : ∀ k : Fin 512, lidx_main_v0 (ix2 r c) k = ix2 r k := fun k => funext fun a => Fin.ext (by
    match a with
    | ⟨0, _⟩ => rfl
    | ⟨1, _⟩ => rfl)
  have hr : ∀ k : Fin 512, ridx_main_v0 (ix2 r c) k = ix2 c k := fun k => funext fun a => Fin.ext (by
    match a with
    | ⟨0, _⟩ => rfl
    | ⟨1, _⟩ => rfl)
  have hb : idx_main_v1 (idx_main_v2 (ix2 r c)) = ix1 c := funext fun a => Fin.ext (by
    match a with
    | ⟨0, _⟩ => rfl)
  simp only [hl, hr, hb]
  rfl

/-- The mean column at row `r`. -/
theorem mean_ix2 (r : Fin 32768) (u : Fin 1) :
    val_main_v7 (F := Ideal) x0 x2 x3 (ix2 r u) = RowNorm.mean (Layer.lin x0 x2 (fun c' => x3 (ix1 c')) r) := by
  rw [val_main_v7_apply, val_main_v5_apply, val_main_v4_apply, val_main_v6_apply, val_main_cst_0_apply, val_main_cst_apply]
  have hi : ∀ k : Fin 2048, idx_main_v4 (idx_main_v5 (ix2 r u)) k = ix2 r k := fun k => funext fun a => Fin.ext (by
    match a with
    | ⟨0, _⟩ => rfl
    | ⟨1, _⟩ => rfl)
  simp only [hi, lin_ix2]
  unfold RowNorm.mean
  show Ideal.div (Ideal.ofBits .f32 0x00000000#32 + _) _ = _
  rw [Ideal.ofBits_zero_f32, zero_add]
  rfl

/-- The centred entry at `(r, c)`, as the reference forms it for the variance. -/
theorem centred_ix2 (r : Fin 32768) (c : Fin 2048) :
    val_main_v9 (F := Ideal) x0 x2 x3 (ix2 r c)
      = Layer.lin x0 x2 (fun c' => x3 (ix1 c')) r c - RowNorm.mean (Layer.lin x0 x2 (fun c' => x3 (ix1 c')) r) := by
  rw [val_main_v9_apply, val_main_v8_apply, lin_ix2]
  have h8 : idx_main_v8 (ix2 r c) = ix2 r (0 : Fin 1) := funext fun a => Fin.ext (by
    match a with
    | ⟨0, _⟩ => rfl
    | ⟨1, _⟩ => rfl)
  rw [h8, mean_ix2]
  rfl

/-- The variance column at row `r`. -/
theorem var_ix2 (r : Fin 32768) (u : Fin 1) :
    val_main_v14 (F := Ideal) x0 x2 x3 (ix2 r u) = RowNorm.var (Layer.lin x0 x2 (fun c' => x3 (ix1 c')) r) := by
  rw [val_main_v14_apply, val_main_v12_apply, val_main_v11_apply, val_main_v13_apply, val_main_cst_2_apply,
    val_main_cst_1_apply]
  have hi : ∀ k : Fin 2048, idx_main_v11 (idx_main_v12 (ix2 r u)) k = ix2 r k := fun k => funext fun a => Fin.ext (by
    match a with
    | ⟨0, _⟩ => rfl
    | ⟨1, _⟩ => rfl)
  simp only [hi, val_main_v10_apply, centred_ix2]
  unfold RowNorm.var
  show Ideal.div (Ideal.ofBits .f32 0x00000000#32 + _) _ = _
  rw [Ideal.ofBits_zero_f32, zero_add]
  rfl

/-- The reference's result is the layer function, index by index. -/
theorem result_eq : val_main_v23 (F := Ideal) x0 x1 x2 x3 = Layer.G x0 x1 x2 (fun c' => x3 (ix1 c')) := by
  funext i
  obtain ⟨r, c, rfl⟩ : ∃ (r : Fin 32768) (c : Fin 2048), i = ix2 r c := ⟨i 0, i 1, eq_ix2 i⟩
  rw [Layer.G_ix2, RowNorm.out_eq_div, val_main_v23_apply, val_main_v22_apply, val_main_v21_apply, val_main_v20_apply,
    val_main_v19_apply, val_main_v18_apply, val_main_v17_apply, val_main_cst_3_apply, val_main_v16_apply,
    val_main_v15_apply, lin_ix2]
  have h15 : idx_main_v15 (ix2 r c) = ix2 r (0 : Fin 1) := funext fun a => Fin.ext (by
    match a with
    | ⟨0, _⟩ => rfl
    | ⟨1, _⟩ => rfl)
  have h20 : idx_main_v20 (ix2 r c) = ix2 r (0 : Fin 1) := funext fun a => Fin.ext (by
    match a with
    | ⟨0, _⟩ => rfl
    | ⟨1, _⟩ => rfl)
  rw [h15, h20, mean_ix2, var_ix2]
  rfl

end Cert.ReferenceIdeal.RefLayer

end
-- ==== Proof.lean ====
/-
  A fused linear layer with per-row normalisation, against its jnp reference.

  Both programs compute, for `x : [32768, 512]`, `W : [2048, 512]`, `b : [2048]` and `y : [32768, 2048]`, the array
  `((z - mean z) · (var z + ε)^(-1/2) + y) · y` with `z = x Wᵀ + b`, the mean and the biased variance taken along each
  row of 2048 features. The kernel works on 64 tiles of 512 rows and multiplies by `rsqrt (var + ε)`; the reference
  works on the whole arrays and divides by `sqrt (var + ε)`. On the extended reals the argument of the root is always
  positive (a sum of squares is never negative, and `ε > 0`), where the product with the reciprocal root and the
  quotient by the root are one value (`RowNorm`); so both end at the one function `Layer.G` of the arguments — the
  kernel tile by tile (`Tile`, `Blocks`), the reference operation by operation (`RefLayer`). The kernel's
  idealization rewrote nothing, so `preserves` is trivial; the frames are the generated ones, the reference's being
  its generated run with the result dropped.
-/
import proofs.«179411_j3556232921779_1_alg».proof.Defs
import proofs.«179411_j3556232921779_1_alg».proof.Proof.Gen.Kernel
import proofs.«179411_j3556232921779_1_alg».proof.Proof.Gen.Kernel.Skeleton
import proofs.«179411_j3556232921779_1_alg».proof.Proof.Gen.Kernel.Launch
import proofs.«179411_j3556232921779_1_alg».proof.Proof.Gen.Kernel.Points
import proofs.«179411_j3556232921779_1_alg».proof.Proof.Gen.Kernel.Frame
import proofs.«179411_j3556232921779_1_alg».proof.Proof.Gen.KernelIdeal
import proofs.«179411_j3556232921779_1_alg».proof.Proof.Gen.KernelIdeal.Skeleton
import proofs.«179411_j3556232921779_1_alg».proof.Proof.Gen.KernelIdeal.Launch
import proofs.«179411_j3556232921779_1_alg».proof.Proof.Gen.KernelIdeal.Points
import proofs.«179411_j3556232921779_1_alg».proof.Proof.Gen.KernelIdeal.Frame
import proofs.«179411_j3556232921779_1_alg».proof.Proof.Gen.ReferenceIdeal
import proofs.«179411_j3556232921779_1_alg».proof.Proof.Gen.Pre_finite_inputs
import proofs.«179411_j3556232921779_1_alg».proof.Proof.Gen.KernelIdeal.Value
import proofs.«179411_j3556232921779_1_alg».proof.Proof.Gen.ReferenceIdeal.Run
import proofs.«179411_j3556232921779_1_alg».proof.Proof.Gen.ReferenceIdeal.Read
import proofs.«179411_j3556232921779_1_alg».proof.Proof.Blocks
import proofs.«179411_j3556232921779_1_alg».proof.Proof.RefLayer
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array and the reference's both end at the layer
    function of the arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefLayer.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
